-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S50000x128 .f32) (main_arg1 : IVec S2x800000 32) (main_arg2 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S50000x128 : Shape := ⟨2, ![50000, 128]⟩
abbrev S2x800000 : Shape := ⟨2, ![2, 800000]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x128 : Shape := ⟨2, ![128, 128]⟩
abbrev S2000x128 : Shape := ⟨2, ![2000, 128]⟩

abbrev nBuf : Space → Nat
  | .hbm => 35
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S128x128, .f32⟩
  | .hbm, ⟨33, _⟩ => ⟨S128x128, .f32⟩
  | .hbm, ⟨34, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 34
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x256, .f32⟩
  | .hbm, ⟨33, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.BlockProduct.lean ====
/-
  One grid point's arithmetic, read at an entry. The body multiplies the point's block of node
  features by the upper half of the weight, the point's block of neighbour means by the lower half,
  and adds the two products. At the ideal instance a change of float format is the identity and a
  product into a zero accumulator is the plain sum over the contracted axis, so entry (p, q) of what
  the body stores is
      ∑ k, xblk (p, k) · wtop (k, q)  +  ∑ k, ablk (p, k) · wbot (k, q).
-/
import proofs.«179910_j68281390072361_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-- The left operand's row coordinate is the output's row. -/
theorem lhs_blk_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction index. -/
theorem lhs_blk_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction index. -/
theorem rhs_blk_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate is the output's column. -/
theorem rhs_blk_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block times a weight half into the zero accumulator, at entry (p, q): the sum over the 128 features. -/
theorem product_apply (a : FVec Ideal S2000x128 .bf16) (w : FVec Ideal S128x128 .bf16) (p : Fin 2000) (q : Fin 128) :
    matmul (F := Ideal) dot_S2000x128_S128x128_S2000x128_1_0_0_1_n_n none a w (constant S2000x128 .f32 0x00000000#32) (ix2 p q)
      = ∑ k : Fin 128, a (ix2 p k) * w (ix2 k q) := by
  show FloatOps.matmul dot_S2000x128_S128x128_S2000x128_1_0_0_1_n_n none a w (constant S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun b => Fin.ext (by
    match b with
    | ⟨0, _⟩ => exact lhs_blk_0 _ _
    | ⟨1, _⟩ => exact (lhs_blk_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun b => Fin.ext (by
    match b with
    | ⟨0, _⟩ => exact (rhs_blk_0 _ _).trans hk
    | ⟨1, _⟩ => exact rhs_blk_1 _ _)
  rw [el, er]

/-- Entry (p, q) of what the body stores, from the four blocks it loads. -/
theorem stored_apply (xblk ablk : Vec Ideal S2000x128 .f32) (wtop wbot : Vec Ideal S128x128 .f32) (p : Fin 2000) (q : Fin 128) :
    k0_pay1 (F := Ideal) xblk ablk wtop wbot (ix2 p q)
      = ∑ k : Fin 128, xblk (ix2 p k) * wtop (ix2 k q) + ∑ k : Fin 128, ablk (ix2 p k) * wbot (ix2 k q) := by
  unfold k0_pay1
  simp only [shapeCast_self]
  refine (addf_apply _ _ _).trans ?_
  rw [product_apply, product_apply]
  rfl

end Cert.KernelIdeal.BlockProduct

end
-- ==== Proof.HostPrefix.lean ====
/-
  What the projection's call finds in the three arrays that the program computes before it: the
  neighbour means (gather the source rows, scatter-add them onto the target rows, divide by the
  clamped in-degree) as a term of the node features and the edge list, and the two halves of the
  weight as slices of the weight argument. The means are kept as ONE named term of the two arguments:
  nothing below ever opens it.
-/
import proofs.«179910_j68281390072361_1_alg».proof.Proof.Gen.KernelIdeal.Frame
import Idealize.ShloMosaic.Lib.StableHlo.Run
import Idealize.ShloMosaic.PureOps.Ideal

noncomputable section

namespace Cert.KernelIdeal.HostPrefix

open Cert.KernelIdeal Cert.KernelIdeal.Gen Idealize.ShloMosaic Idealize.ShloMosaic.TcCoe Idealize.SL.Sem

variable (m : (ℓ : Loc nD τ sig) → Buf (Elt Ideal) ℓ)

/-- The mean of the source rows of each node's incoming edges, as the program computes it before the call:
    a term of the node features `x` and the edge list `e`. -/
def neighbourMean (x : (⟨S50000x128, .f32⟩ : BufTy).Contents (Elt Ideal)) (e : (⟨S2x800000, .i32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (shapeCast _ (extractStridedSlice S1x800000 ![1, 0] e slices_S2x800000_S1x800000_1_0) shapeCasts_S1x800000_S800000))
      (Host.gather gather_S50000x128_S800000x1_S800000x128_1_0_n_n_0_1_1128 x
        (broadcastInDim S800000x1 ![0] bcast_S800000_S800000x1_0
          (select (cmpi .slt (shapeCast _ (extractStridedSlice S1x800000 ![0, 0] e slices_S2x800000_S1x800000_0_0) shapeCasts_S1x800000_S800000) (broadcastInDim S800000 ![] bcast_S_S800000 (constantI S_ 32 0#32)))
            (addi (shapeCast _ (extractStridedSlice S1x800000 ![0, 0] e slices_S2x800000_S1x800000_0_0) shapeCasts_S1x800000_S800000) (broadcastInDim S800000 ![] bcast_S_S800000 (constantI S_ 32 50000#32)))
            (shapeCast _ (extractStridedSlice S1x800000 ![0, 0] e slices_S2x800000_S1x800000_0_0) shapeCasts_S1x800000_S800000)))))
    (broadcastInDim S50000x128 ![0, 1] bcast_S50000x1_S50000x128_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (shapeCast _ (extractStridedSlice S1x800000 ![1, 0] e slices_S2x800000_S1x800000_1_0) shapeCasts_S1x800000_S800000))
            (broadcastInDim S800000 ![] bcast_S_S800000 (constant (F := Ideal) S_ .f32 0x3F800000#32)))
          (broadcastInDim S50000 ![] bcast_S_S50000 (constant (F := Ideal) S_ .f32 0x3F800000#32)))))

set_option maxHeartbeats 2000000 in
/-- The call's second operand holds the neighbour means of the two arguments. -/
theorem means_found (c : Dev nD) :
    (V m c main_v22 : S50000x128.Idx → EReal) = neighbourMean (m ((c : Thread nD τ).loc main_arg0)) (m ((c : Thread nD τ).loc main_arg1)) := by
  unfold neighbourMean
  dsimp only [Gen.V, Gen.hostOps0]
  after_results_simp <;> rfl

/-- The call's third operand holds rows 0 … 127 of the weight. -/
theorem top_found (c : Dev nD) :
    (V m c main_v23 : S128x128.Idx → EReal) = extractStridedSlice S128x128 ![0, 0] (m ((c : Thread nD τ).loc main_arg2)) slices_S256x128_S128x128_0_0 := by
  dsimp only [Gen.V, Gen.hostOps0]
  after_results

/-- The call's fourth operand holds rows 128 … 255 of the weight. -/
theorem bottom_found (c : Dev nD) :
    (V m c main_v24 : S128x128.Idx → EReal) = extractStridedSlice S128x128 ![128, 0] (m ((c : Thread nD τ).loc main_arg2)) slices_S256x128_S128x128_128_0 := by
  dsimp only [Gen.V, Gen.hostOps0]
  after_results

end Cert.KernelIdeal.HostPrefix

end
-- ==== Proof.SplitProjection.lean ====
/-
  The projection of the joined features, as one function of its three arrays. Row i of the result is
  row i of [x | a] (the node's own 128 features followed by its 128 neighbour means) times the
  256 × 128 weight. A sum over the 256 joined columns is the sum over the first 128 plus the sum over
  the last 128 (addition of extended reals is commutative and associative, so no finiteness is used),
  hence entry (i, j) is
      ∑ k, x (i, k) · w (k, j)  +  ∑ k, a (i, k) · w (128 + k, j).
-/
import Idealize.ShloMosaic.Lib.ValueIdx
import Mathlib.Algebra.BigOperators.Fin

noncomputable section

namespace SplitProjection

open Idealize.ShloMosaic Idealize.ShloMosaic.ValueIdx

/-- Column k of the first half of the joined axis. -/
abbrev lo (k : Fin 128) : Fin 256 := ⟨k.val, by have := k.isLt; omega⟩
/-- Column k of the second half of the joined axis. -/
abbrev hi (k : Fin 128) : Fin 256 := ⟨128 + k.val, by have := k.isLt; omega⟩

/-- A sum over the 256 joined columns, half by half. -/
theorem sum_halves (f : Fin 256 → EReal) : ∑ k : Fin 256, f k = ∑ k : Fin 128, f (lo k) + ∑ k : Fin 128, f (hi k) :=
  Fin.sum_univ_add (a := 128) (b := 128) f

/-- [x | a] · w, entry by entry, with the joined axis already split. -/
def projection (x a : (⟨2, ![50000, 128]⟩ : Shape).Idx → EReal) (w : (⟨2, ![256, 128]⟩ : Shape).Idx → EReal) :
    (⟨2, ![50000, 128]⟩ : Shape).Idx → EReal :=
  fun i => ∑ k : Fin 128, x (ix2 (i 0) k) * w (ix2 (lo k) (i 1)) + ∑ k : Fin 128, a (ix2 (i 0) k) * w (ix2 (hi k) (i 1))

theorem projection_apply (x a : (⟨2, ![50000, 128]⟩ : Shape).Idx → EReal) (w : (⟨2, ![256, 128]⟩ : Shape).Idx → EReal)
    (p : Fin 50000) (q : Fin 128) :
    projection x a w (ix2 p q) = ∑ k : Fin 128, x (ix2 p k) * w (ix2 (lo k) q) + ∑ k : Fin 128, a (ix2 p k) * w (ix2 (hi k) q) := rfl

end SplitProjection

end
-- ==== Proof.NodeProjection.lean ====
/-
  From the grid's blocks to the whole result array. Grid point t stages rows 2000·t … 2000·t + 1999 of
  the node features and of the neighbour means, and both weight halves whole; what it writes back is
  rows 2000·t … 2000·t + 1999 of ONE function of the four arrays the call finds,
      (i, j) ↦ ∑ k, x (i, k) · wtop (k, j) + ∑ k, a (i, k) · wbot (k, j).
  The 25 points' row ranges tile the 50000 rows, so the result array ends holding that function; with
  the weight halves read as slices of the weight argument it is the split projection of the node
  features, the neighbour means and the weight.
-/
import proofs.«179910_j68281390072361_1_alg».proof.Proof.Gen.KernelIdeal.Value
import proofs.«179910_j68281390072361_1_alg».proof.Proof.BlockProduct
import proofs.«179910_j68281390072361_1_alg».proof.Proof.HostPrefix
import proofs.«179910_j68281390072361_1_alg».proof.Proof.SplitProjection

noncomputable section

namespace Cert.KernelIdeal.NodeProjection

open Cert.KernelIdeal Cert.KernelIdeal.Gen Idealize.ShloMosaic Idealize.ShloMosaic.TcCoe Idealize.SL.Sem
open Idealize.ShloMosaic.ValueIdx SplitProjection
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three row-tiled windows sit at block row t, column 0; the two
    weight halves at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block is row 2000·t + p of the array. -/
abbrev row (t : Fin cfg0.N) (p : Fin 2000) : Fin 50000 :=
  ⟨2000 * t.val + p.val, by have := t.isLt; have h : cfg0.N = 25 := N_0; have := p.isLt; omega⟩

/-- What the call computes from the four arrays it finds, entry by entry. -/
def called (x a : S50000x128.Idx → EReal) (wtop wbot : S128x128.Idx → EReal) : S50000x128.Idx → EReal :=
  fun i => ∑ k : Fin 128, x (ix2 (i 0) k) * wtop (ix2 k (i 1)) + ∑ k : Fin 128, a (ix2 (i 0) k) * wbot (ix2 k (i 1))

theorem called_apply (x a : S50000x128.Idx → EReal) (wtop wbot : S128x128.Idx → EReal) (r : Fin 50000) (q : Fin 128) :
    called x a wtop wbot (ix2 r q) = ∑ k : Fin 128, x (ix2 r k) * wtop (ix2 k q) + ∑ k : Fin 128, a (ix2 r k) * wbot (ix2 k q) := rfl

/-- Point t's block of a row-tiled input, whatever its array holds: rows 2000·t … of the array (node features). -/
theorem rows_of_features (c : Dev nD) (A : Buf (Elt Ideal) ((c : Thread nD τ).loc (Pipeline.arrRef spec0 0))) (t : Fin cfg0.N) (p : Fin 2000) (k : Fin 128) :
    (((cfg0.win 0).blk t).view.read (Elt Ideal) A : Vec Ideal S2000x128 .f32) (ix2 p k) = (A : S50000x128.Idx → EReal) (ix2 (row t p) k) := by
  obtain ⟨e0, e1, -⟩ := block_indices t
  rw [View.read_apply]
  refine congrArg A (funext fun a => Fin.ext ?_)
  match a with
  | ⟨0, _⟩ => show win0_0.index t 0 * 2000 + 1 * p.val = 2000 * t.val + p.val; rw [e0]; omega
  | ⟨1, _⟩ => show win0_0.index t 1 * 128 + 1 * k.val = k.val; rw [e1]; omega

/-- The same for the neighbour means' window. -/
theorem rows_of_means (c : Dev nD) (A : Buf (Elt Ideal) ((c : Thread nD τ).loc (Pipeline.arrRef spec0 1))) (t : Fin cfg0.N) (p : Fin 2000) (k : Fin 128) :
    (((cfg0.win 1).blk t).view.read (Elt Ideal) A : Vec Ideal S2000x128 .f32) (ix2 p k) = (A : S50000x128.Idx → EReal) (ix2 (row t p) k) := by
  obtain ⟨-, -, e0, e1, -⟩ := block_indices t
  rw [View.read_apply]
  refine congrArg A (funext fun a => Fin.ext ?_)
  match a with
  | ⟨0, _⟩ => show win0_1.index t 0 * 2000 + 1 * p.val = 2000 * t.val + p.val; rw [e0]; omega
  | ⟨1, _⟩ => show win0_1.index t 1 * 128 + 1 * k.val = k.val; rw [e1]; omega

/-- Every point's block of the upper weight half is the whole half. -/
theorem whole_top (c : Dev nD) (A : Buf (Elt Ideal) ((c : Thread nD τ).loc (Pipeline.arrRef spec0 2))) (t : Fin cfg0.N) (k q : Fin 128) :
    (((cfg0.win 2).blk t).view.read (Elt Ideal) A : Vec Ideal S128x128 .f32) (ix2 k q) = (A : S128x128.Idx → EReal) (ix2 k q) := by
  obtain ⟨-, -, -, -, e0, e1, -⟩ := block_indices t
  rw [View.read_apply]
  refine congrArg A (funext fun a => Fin.ext ?_)
  match a with
  | ⟨0, _⟩ => show win0_2.index t 0 * 128 + 1 * k.val = k.val; rw [e0]; omega
  | ⟨1, _⟩ => show win0_2.index t 1 * 128 + 1 * q.val = q.val; rw [e1]; omega

/-- Every point's block of the lower weight half is the whole half. -/
theorem whole_bottom (c : Dev nD) (A : Buf (Elt Ideal) ((c : Thread nD τ).loc (Pipeline.arrRef spec0 3))) (t : Fin cfg0.N) (k q : Fin 128) :
    (((cfg0.win 3).blk t).view.read (Elt Ideal) A : Vec Ideal S128x128 .f32) (ix2 k q) = (A : S128x128.Idx → EReal) (ix2 k q) := by
  obtain ⟨-, -, -, -, -, -, e0, e1, -⟩ := block_indices t
  rw [View.read_apply]
  refine congrArg A (funext fun a => Fin.ext ?_)
  match a with
  | ⟨0, _⟩ => show win0_3.index t 0 * 128 + 1 * k.val = k.val; rw [e0]; omega
  | ⟨1, _⟩ => show win0_3.index t 1 * 128 + 1 * q.val = q.val; rw [e1]; omega

/-- Entry (p, q) of point t's output block lands at (2000·t + p, q) of the result. -/
theorem out_index (t : Fin cfg0.N) (p : Fin 2000) (q : Fin 128) :
    ((cfg0.win 4).blk t).view.emb (ix2 p q : S2000x128.Idx) = (ix2 (row t p) q : S50000x128.Idx) := by
  obtain ⟨-, -, -, -, -, -, -, -, e0, e1⟩ := block_indices t
  funext a
  apply Fin.ext
  match a with
  | ⟨0, _⟩ => show win0_4.index t 0 * 2000 + 1 * p.val = 2000 * t.val + p.val; rw [e0]; omega
  | ⟨1, _⟩ => show win0_4.index t 1 * 128 + 1 * q.val = q.val; rw [e1]; omega

/-- A staged block X that agrees entry by entry with rows 2000·t … of an array G is what the write-back at
    point t takes from G's place: the block of G at t. -/
theorem out_block (X : Vec Ideal S2000x128 .f32) (G : S50000x128.Idx → EReal) (t : Fin cfg0.N)
    (h : ∀ (p : Fin 2000) (q : Fin 128), X (ix2 p q) = G (ix2 (row t p) q)) :
    (cfg0.win 4).cut (grid0.coords t) X = ((cfg0.win 4).blk t).view.read (Elt Ideal) G := by
  funext j
  obtain ⟨p, q, rfl⟩ : ∃ (p : Fin 2000) (q : Fin 128), j = ix2 p q := ⟨j 0, j 1, eq_ix2 j⟩
  rw [View.read_apply]
  show X (ix2 p q) = G (((cfg0.win 4).blk t).view.emb (ix2 p q))
  rw [out_index t p q]
  exact h p q

/-- What point t writes back is its rows of `called` of the four arrays the call finds. -/
theorem flushed_eq (c : Dev nD) (t : Fin cfg0.N) :
    (dats m 0 c).flushed 4 t
      = ((cfg0.win 4).blk t).view.read (Elt Ideal)
          (called (V m c (Pipeline.arrRef spec0 0)) (V m c (Pipeline.arrRef spec0 1)) (V m c (Pipeline.arrRef spec0 2)) (V m c (Pipeline.arrRef spec0 3))) := by
  rw [Value.flushed4]
  refine out_block (out0_4 (iblk m c 0 t) (iblk m c 1 t) (iblk m c 2 t) (iblk m c 3 t)) _ t (fun p q => ?_)
  unfold out0_4
  rw [View.canon_unit_zero hz]
  simp only [View.ld_unit_zero (S := S2000x128) hz, View.ld_unit_zero (S := S128x128) hz]
  rw [called_apply]
  refine (BlockProduct.stored_apply (iblk m c 0 t) (iblk m c 1 t) (iblk m c 2 t) (iblk m c 3 t) p q).trans ?_
  unfold iblk
  refine congrArg₂ (· + ·) (Finset.sum_congr rfl fun k _ => ?_) (Finset.sum_congr rfl fun k _ => ?_)
  · exact congrArg₂ (· * ·) (rows_of_features c (V m c (Pipeline.arrRef spec0 0)) t p k) (whole_top c (V m c (Pipeline.arrRef spec0 2)) t k q)
  · exact congrArg₂ (· * ·) (rows_of_means c (V m c (Pipeline.arrRef spec0 1)) t p k) (whole_bottom c (V m c (Pipeline.arrRef spec0 3)) t k q)

/-- An index of the result is in point t's block iff each coordinate is in the block's range. -/
theorem mem_block (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v25).slice (win0_4.rect t)).set ↔ _
  rw [View.set_slice_whole, Rect.mem_set_unit]
  exact Iff.rfl

/-- Every row is in the block of point ⌊row / 2000⌋. -/
theorem covered (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  refine ⟨⟨(i 0).val / 2000, by omega⟩, flush0_4 _, ?_⟩
  obtain ⟨-, -, -, -, -, -, -, -, e0, e1⟩ := block_indices ⟨(i 0).val / 2000, by omega⟩
  rw [mem_block]
  intro a
  match a with
  | ⟨0, _⟩ =>
    show win0_4.index _ (0 : Fin 2) * 2000 ≤ (i 0).val ∧ (i 0).val < win0_4.index _ (0 : Fin 2) * 2000 + 2000
    rw [e0]; show (i 0).val / 2000 * 2000 ≤ (i 0).val ∧ (i 0).val < (i 0).val / 2000 * 2000 + 2000; omega
  | ⟨1, _⟩ =>
    show win0_4.index _ (1 : Fin 2) * 128 ≤ (i 1).val ∧ (i 1).val < win0_4.index _ (1 : Fin 2) * 128 + 128
    rw [e1]; omega

/-- The result array after the run, from the four arrays the call finds. -/
theorem final_found (c : Dev nD) :
    (dats m 0 c).arrAt 4 cfg0.N
      = called (V m c (Pipeline.arrRef spec0 0)) (V m c (Pipeline.arrRef spec0 1)) (V m c (Pipeline.arrRef spec0 2)) (V m c (Pipeline.arrRef spec0 3)) :=
  (dats m 0 c).arrAt_eq_of_cover 4 _ (fun t _ => flushed_eq m c t) covered

/-- The upper weight half at (k, q) is the weight at (k, q). -/
theorem top_apply (w : S256x128.Idx → EReal) (k q : Fin 128) :
    extractStridedSlice S128x128 ![0, 0] w slices_S256x128_S128x128_0_0 (ix2 k q) = w (ix2 (lo k) q) :=
  extractStridedSlice_apply ![0, 0] w slices_S256x128_S128x128_0_0 (ix2 k q) (ix2 (lo k) q) (fun a => match a with
    | ⟨0, _⟩ => by show k.val = 0 + k.val; omega
    | ⟨1, _⟩ => by show q.val = 0 + q.val; omega)

/-- The lower weight half at (k, q) is the weight at (128 + k, q). -/
theorem bottom_apply (w : S256x128.Idx → EReal) (k q : Fin 128) :
    extractStridedSlice S128x128 ![128, 0] w slices_S256x128_S128x128_128_0 (ix2 k q) = w (ix2 (hi k) q) :=
  extractStridedSlice_apply ![128, 0] w slices_S256x128_S128x128_128_0 (ix2 k q) (ix2 (hi k) q) (fun a => match a with
    | ⟨0, _⟩ => by show 128 + k.val = 128 + k.val; rfl
    | ⟨1, _⟩ => by show q.val = 0 + q.val; omega)

/-- With the halves read as slices, `called` is the split projection over the whole weight. -/
theorem called_slices (x a : S50000x128.Idx → EReal) (w : S256x128.Idx → EReal) :
    called x a (extractStridedSlice S128x128 ![0, 0] w slices_S256x128_S128x128_0_0) (extractStridedSlice S128x128 ![128, 0] w slices_S256x128_S128x128_128_0)
      = projection x a w := by
  funext i
  obtain ⟨r, q, rfl⟩ : ∃ (r : Fin 50000) (q : Fin 128), i = ix2 r q := ⟨i 0, i 1, eq_ix2 i⟩
  rw [called_apply, projection_apply]
  refine congrArg₂ (· + ·) (Finset.sum_congr rfl fun k _ => ?_) (Finset.sum_congr rfl fun k _ => ?_)
  · rw [top_apply]
  · rw [bottom_apply]

/-- The result array after the run: the split projection of the node features, their neighbour means and the weight. -/
theorem final (c : Dev nD) :
    (dats m 0 c).arrAt 4 cfg0.N
      = projection (m ((c : Thread nD τ).loc main_arg0))
          (HostPrefix.neighbourMean (m ((c : Thread nD τ).loc main_arg0)) (m ((c : Thread nD τ).loc main_arg1)))
          (m ((c : Thread nD τ).loc main_arg2)) := by
  rw [final_found]
  show called (V m c main_arg0) (V m c main_v22) (V m c main_v23) (V m c main_v24) = _
  rw [V_main_arg0, HostPrefix.means_found, HostPrefix.top_found, HostPrefix.bottom_found]
  exact called_slices _ _ _

/-- The run, read: the result array at the split projection, the arguments unchanged. -/
theorem run : θ_run defs (onTc (τ := τ) (main (F := Ideal))) ⟨m, fun _ => 0, ρ⟩ fun r => ∀ c : Dev nD,
      r.2.mem ((c : Thread nD τ).loc main_v25)
        = projection (m ((c : Thread nD τ).loc main_arg0))
            (HostPrefix.neighbourMean (m ((c : Thread nD τ).loc main_arg0)) (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.NodeProjection

end
-- ==== Proof.ReferenceEntry.lean ====
/-
  The reference at an entry. It joins each node's features with its neighbour means along the column
  axis and multiplies the 50000 × 256 result by the weight; read at (p, q) that is a sum over the 256
  joined columns, whose first 128 terms read the features and whose last 128 read the means — the
  split projection of SplitProjection, with the reference's own neighbour-mean stage in the second place.
-/
import proofs.«179910_j68281390072361_1_alg».proof.Proof.Gen.ReferenceIdeal.Read
import proofs.«179910_j68281390072361_1_alg».proof.Proof.SplitProjection

noncomputable section

namespace Cert.ReferenceIdeal.Entry

open Cert.ReferenceIdeal Cert.ReferenceIdeal.Gen Cert.ReferenceIdeal.Read Idealize.ShloMosaic Idealize.ShloMosaic.ValueIdx SplitProjection

/-- A joined column below 128 reads the node's own feature. -/
theorem joined_lo (x0 : (⟨S50000x128, .f32⟩ : BufTy).Contents (Elt Ideal)) (x1 : (⟨S2x800000, .i32⟩ : BufTy).Contents (Elt Ideal))
    (p : Fin 50000) (q : Fin 128) (k : Fin 128) :
    val_main_v23 (F := Ideal) x0 x1 (lidx_main_v24 (ix2 p q) (lo k)) = x0 (ix2 p k) := by
  unfold val_main_v23
  exact concatenate_pair_apply_left (1 : Fin S50000x256.rank) x0 _ concatenates_S50000x128_S50000x128_S50000x256_d1 _ rfl (ix2 p k)
    (fun b => match b with | ⟨0, _⟩ => rfl | ⟨1, _⟩ => rfl)

/-- A joined column from 128 on reads the neighbour mean. -/
theorem joined_hi (x0 : (⟨S50000x128, .f32⟩ : BufTy).Contents (Elt Ideal)) (x1 : (⟨S2x800000, .i32⟩ : BufTy).Contents (Elt Ideal))
    (p : Fin 50000) (q : Fin 128) (k : Fin 128) :
    val_main_v23 (F := Ideal) x0 x1 (lidx_main_v24 (ix2 p q) (hi k)) = val_main_v22 (F := Ideal) x0 x1 (ix2 p k) := by
  unfold val_main_v23
  exact concatenate_pair_apply_right (1 : Fin S50000x256.rank) x0 _ concatenates_S50000x128_S50000x128_S50000x256_d1 _ rfl rfl (ix2 p k)
    (fun b hb => match b with | ⟨0, _⟩ => rfl | ⟨1, _⟩ => absurd rfl hb)
    (by show k.val + 128 = 128 + k.val; omega)

/-- The weight is read at (joined column, q). -/
theorem weight_index (p : Fin 50000) (q : Fin 128) (k : Fin 256) : ridx_main_v24 (ix2 p q) k = ix2 k q :=
  funext fun a => Fin.ext (by match a with | ⟨0, _⟩ => rfl | ⟨1, _⟩ => rfl)

/-- The reference's result is the split projection of the features, its own neighbour means and the weight. -/
theorem result_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) :
    val_main_v24 (F := Ideal) x0 x1 x2 = projection x0 (val_main_v22 (F := Ideal) x0 x1) x2 := by
  funext i
  obtain ⟨p, q, rfl⟩ : ∃ (p : Fin 50000) (q : Fin 128), i = ix2 p q := ⟨i 0, i 1, eq_ix2 i⟩
  rw [val_main_v24_apply, sum_halves, projection_apply]
  refine congrArg₂ (· + ·) (Finset.sum_congr rfl fun k _ => ?_) (Finset.sum_congr rfl fun k _ => ?_)
  · rw [joined_lo, weight_index]
  · rw [joined_hi, weight_index]

end Cert.ReferenceIdeal.Entry

end
-- ==== Proof.Claims.lean ====
/-
  The five claims. The three frames are the generated ones (the reference's is its generated run with
  the result dropped); the idealization rewrote nothing, so `preserves` is trivial. For `algebraic`:
  the kernel's result array ends at the split projection of the node features, the neighbour means and
  the weight (NodeProjection), the reference's at the product of the joined features with the weight,
  which read entry by entry is the same split projection (ReferenceEntry); and the two programs compute
  the neighbour means by the same operations with the same constants, so that term is one term.
-/
import proofs.«179910_j68281390072361_1_alg».proof.Defs
import proofs.«179910_j68281390072361_1_alg».proof.Proof.Gen.Kernel.Frame
import proofs.«179910_j68281390072361_1_alg».proof.Proof.Gen.KernelIdeal.Frame
import proofs.«179910_j68281390072361_1_alg».proof.Proof.Gen.ReferenceIdeal.Run
import proofs.«179910_j68281390072361_1_alg».proof.Proof.Gen.ReferenceIdeal.Read
import proofs.«179910_j68281390072361_1_alg».proof.Proof.Gen.Pre_finite_inputs
import proofs.«179910_j68281390072361_1_alg».proof.Proof.NodeProjection
import proofs.«179910_j68281390072361_1_alg».proof.Proof.ReferenceEntry

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs gather the source rows, scatter-add them onto the target rows and divide by the clamped
    in-degree with the same operations and constants: the neighbour means are one term of the arguments. -/
theorem means_agree (x : (⟨Cert.ReferenceIdeal.S50000x128, .f32⟩ : BufTy).Contents (Elt Ideal))
    (e : (⟨Cert.ReferenceIdeal.S2x800000, .i32⟩ : BufTy).Contents (Elt Ideal)) :
    Cert.ReferenceIdeal.Read.val_main_v22 (F := Ideal) x e = Cert.KernelIdeal.HostPrefix.neighbourMean x e := rfl

theorem algebraic : Cert.algebraic_KernelIdeal_ReferenceIdeal := by
  intro m ρ m' ρ' _ hagree
  refine ⟨_, Cert.KernelIdeal.NodeProjection.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v24_eq _ _ _).trans ?_
  rw [Cert.ReferenceIdeal.Entry.result_eq, means_agree]

end Cert.Proof.Claims

end
-- ==== Proof.lean ====
/-
  `Cert.Claim` for the mean-aggregating graph layer: each node's features joined with the mean of its
  in-neighbours' features, times a 256 × 128 weight. The kernel never forms the joined array: it splits
  the weight into its upper and lower 128 rows and, 2000 nodes at a time, adds the features times the
  upper half to the neighbour means times the lower half. Over the extended reals that is the reference's
  one product with the joined axis summed half by half. The pieces: Proof/SplitProjection.lean (the split
  sum and the common result function), Proof/BlockProduct.lean (one grid point's arithmetic at an
  entry), Proof/HostPrefix.lean (the arrays the call finds), Proof/NodeProjection.lean (blocks to the
  whole array, and the kernel's run), Proof/ReferenceEntry.lean (the reference at an entry),
  Proof/Claims.lean (the five claims).
-/
import proofs.«179910_j68281390072361_1_alg».proof.Defs
import proofs.«179910_j68281390072361_1_alg».proof.Proof.Claims
import proofs.«179910_j68281390072361_1_alg».proof.Proof.Gen.Kernel
import proofs.«179910_j68281390072361_1_alg».proof.Proof.Gen.KernelIdeal
import proofs.«179910_j68281390072361_1_alg».proof.Proof.Gen.ReferenceIdeal
import proofs.«179910_j68281390072361_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
